-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S1024x1 : Shape := ⟨2, ![1024, 1]⟩
abbrev S2048x1 : Shape := ⟨2, ![2048, 1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn {F : FTy → Type} [FloatOps F] (main_arg0 : FVec F S32x2048x1024 .f32) (main_arg1 : FVec F S1024x1 .f32) (main_arg2 : FVec F S2048x1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  main_v13
-- ==== Kernel.lean ====
abbrev S32x2048x1024 : Shape := ⟨3, ![32, 2048, 1024]⟩
abbrev S1024x1 : Shape := ⟨2, ![1024, 1]⟩
abbrev S2048x1 : Shape := ⟨2, ![2048, 1]⟩
abbrev S1024 : Shape := ⟨1, ![1024]⟩
abbrev S1x1024 : Shape := ⟨2, ![1, 1024]⟩
abbrev S2048 : Shape := ⟨1, ![2048]⟩
abbrev S1x2048 : Shape := ⟨2, ![1, 2048]⟩
abbrev S32x1024 : Shape := ⟨2, ![32, 1024]⟩
abbrev S8x128x1024 : Shape := ⟨3, ![8, 128, 1024]⟩
abbrev S1x128 : Shape := ⟨2, ![1, 128]⟩
abbrev S8x1024 : Shape := ⟨2, ![8, 1024]⟩
abbrev S8x1 : Shape := ⟨2, ![8, 1]⟩
abbrev S1x1x1024 : Shape := ⟨3, ![1, 1, 1024]⟩
abbrev S8x128 : Shape := ⟨2, ![8, 128]⟩
abbrev S8 : Shape := ⟨1, ![8]⟩
abbrev S8x128x1 : Shape := ⟨3, ![8, 128, 1]⟩

abbrev nBuf : Space → Nat
  | .hbm => 8
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024x1, .f32⟩
  | .hbm, ⟨2, _⟩ => ⟨S2048x1, .f32⟩
  | .hbm, ⟨3, _⟩ => ⟨S1024, .f32⟩
  | .hbm, ⟨4, _⟩ => ⟨S1x1024, .f32⟩
  | .hbm, ⟨5, _⟩ => ⟨S2048, .f32⟩
  | .hbm, ⟨6, _⟩ => ⟨S1x2048, .f32⟩
  | .hbm, ⟨7, _⟩ => ⟨S32x1024, .f32⟩
  | .local _ .vmem, ⟨0, _⟩ => ⟨S8x128x1024, .f32⟩
  | .local _ .vmem, ⟨1, _⟩ => ⟨S8x128x1024, .f32⟩
  | .local _ .vmem, ⟨2, _⟩ => ⟨S1x1024, .f32⟩
  | .local _ .vmem, ⟨3, _⟩ => ⟨S1x128, .f32⟩
  | .local _ .vmem, ⟨4, _⟩ => ⟨S1x128, .f32⟩
  | .local _ .vmem, ⟨5, _⟩ => ⟨S8x1024, .f32⟩
  | .local _ .vmem, ⟨6, _⟩ => ⟨S8x1024, .f32⟩
  | .local _ .vmem, ⟨7, _⟩ => ⟨S8x1, .f32⟩
  | .local _ .vmem, ⟨8, _⟩ => ⟨S8x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_17 : BitVec 32 := 0#32
  let v34 : BitVec 1 := Scalar.cmpi .ne v33 c0_i32_17
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024x1_S1024 : S1024x1.ShapeCasts S1024
  shapeCasts_S1024_S1x1024 : S1024.ShapeCasts S1x1024
  shapeCasts_S2048x1_S2048 : S2048x1.ShapeCasts S2048
  shapeCasts_S2048_S1x2048 : S2048.ShapeCasts S1x2048
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x128x1024_S8x128x1024_0_0_0 : ∀ a, (![0, 0, 0] : Fin 3 → Nat) a + S8x128x1024.size a ≤ S8x128x1024.size a
  h_S8x128x1024 : 0 < S8x128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x1024_S1x1x1024 : S1x1024.ShapeCasts S1x1x1024
  broadcasts_S1x1x1024_S8x128x1024 : S1x1x1024.Broadcasts S8x128x1024
  reduces_S8x128x1024_S8x128 : S8x128x1024.Reduces [2] S8x128
  broadcasts_S1x128_S8x128 : S1x128.Broadcasts S8x128
  reduces_S8x128_S8 : S8x128.Reduces [1] S8
  shapeCasts_S8_S8x1 : S8.ShapeCasts S8x1
  shapeCasts_S8x128_S8x128x1 : S8x128.ShapeCasts S8x128x1
  broadcasts_S8x128x1_S8x128x1024 : S8x128x1.Broadcasts S8x128x1024
  reduces_S8x128x1024_S8x1024 : S8x128x1024.Reduces [1] S8x1024
  broadcasts_S8x1_S8x1024 : S8x1.Broadcasts S8x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S32x2048x1024.size a
  hwx0_0 : ∀ i : grid0.Coords, EltTy.bits .f32 = 32 ∨ (Rect.block (s := S32x2048x1024) S8x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x2048.size a
  hwx0_2 : ∀ i : grid0.Coords, EltTy.bits .f32 = 32 ∨ (Rect.block (s := S1x2048) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x1024.size a
  hwx0_3 : ∀ i : grid0.Coords, EltTy.bits .f32 = 32 ∨ (Rect.block (s := S32x1024) S8x1024.size (cc0_transform_3 i) (hinb0_3 i)).WholeWords (EltTy.packing .f32)

variable [Facts₀]

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x2048x1024 : Shape := ⟨3, ![32, 2048, 1024]⟩
abbrev S1024x1 : Shape := ⟨2, ![1024, 1]⟩
abbrev S2048x1 : Shape := ⟨2, ![2048, 1]⟩
abbrev S32x2048x1 : Shape := ⟨3, ![32, 2048, 1]⟩
abbrev S1x2048x1 : Shape := ⟨3, ![1, 2048, 1]⟩
abbrev S_ : Shape := ⟨0, ![]⟩
abbrev S32x1 : Shape := ⟨2, ![32, 1]⟩
abbrev S32x1x1 : Shape := ⟨3, ![32, 1, 1]⟩
abbrev S32x1024 : Shape := ⟨2, ![32, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x1, .f32⟩
  | .hbm, ⟨2, _⟩ => ⟨S2048x1, .f32⟩
  | .hbm, ⟨3, _⟩ => ⟨S32x2048x1, .f32⟩
  | .hbm, ⟨4, _⟩ => ⟨S1x2048x1, .f32⟩
  | .hbm, ⟨5, _⟩ => ⟨S32x2048x1, .f32⟩
  | .hbm, ⟨6, _⟩ => ⟨S32x2048x1, .f32⟩
  | .hbm, ⟨7, _⟩ => ⟨S32x2048x1, .f32⟩
  | .hbm, ⟨8, _⟩ => ⟨S_, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1x1, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S_, .f32⟩
  | .hbm, ⟨18, _⟩ => ⟨S32x1, .f32⟩
  | .hbm, ⟨19, _⟩ => ⟨S32x1x1, .f32⟩
  | .hbm, ⟨20, _⟩ => ⟨S32x2048x1, .f32⟩
  | .hbm, ⟨21, _⟩ => ⟨S32x2048x1, .f32⟩
  | .hbm, ⟨22, _⟩ => ⟨S32x2048x1024, .f32⟩
  | .hbm, ⟨23, _⟩ => ⟨S32x2048x1024, .f32⟩
  | .hbm, ⟨24, _⟩ => ⟨S_, .f32⟩
  | .hbm, ⟨25, _⟩ => ⟨S32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S2048x1_S1x2048x1_1_2 : S2048x1.BroadcastsInDim S1x2048x1 (![1, 2] : Fin 2 → Fin S1x2048x1.rank)
  bcast_S1x2048x1_S32x2048x1_0_1_2 : S1x2048x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  dot_S32x2048x1024_S1024x1_S32x2048x1_2_0_01_1_n_n_wf : DotDims.WF S32x2048x1024 S1024x1 S32x2048x1 [2] [0] [0, 1] [1] [] []

variable [Facts₀]

def dot_S32x2048x1024_S1024x1_S32x2048x1_2_0_01_1_n_n : DotDims S32x2048x1024 S1024x1 S32x2048x1 where
  lhsContracting := [2]
  rhsContracting := [0]
  lhsNonContracting := [0, 1]
  rhsNonContracting := [1]
  lhsBatch := []
  rhsBatch := []
  wf := dot_S32x2048x1024_S1024x1_S32x2048x1_2_0_01_1_n_n_wf

class Facts : Prop extends Facts₀ where

variable [Facts]
-- ==== Proof.KernelPieces.lean ====
/-
  What one grid point leaves in the two accumulators and in the output block, as values.

  The kernel keeps two accumulators across the time tiles of a batch chunk: `l` ([8, 1], the running sum of the
  weights) and `acc` ([8, 1024], the running weighted sum of the rows).  At the first tile both are reset to zero
  and then updated; at every other tile they are updated from what the tile before left; at the last tile the
  output block is `acc / l` of the freshly updated accumulators.  Each lemma below reads one of these stores back
  as the store's value: a function of the tile's three input blocks and of the accumulators as the point found them.
-/
import proofs.«403637_j37976100831584_4_alg».proof.Proof.Gen.KernelIdeal.Frame
import Idealize.ShloMosaic.Lib.Pipeline.Value
import Idealize.ShloMosaic.Lib.Tactic

noncomputable section

namespace Cert.KernelIdeal.PoolValue

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile of a chunk: reset, then update -/

/-- After the first tile `l` holds the update of the zero block. -/
theorem l_first (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1x128 .f32) (harg4 : arg4.IsWhole) (arg5 : Memref sig .tc .vmem S8x1024 .f32) (harg5 : arg5.IsWhole) (arg6 : Memref sig .tc .vmem S8x1 .f32) (harg6 : arg6.IsWhole) (arg7 : Memref sig .tc .vmem S8x1024 .f32) (harg7 : arg7.IsWhole) (hc0 : cond0_0 i) (hc1 : ¬cond0_1 i) (x0 : Vec F S8x128x1024 .f32) (x1 : Vec F S1x1024 .f32) (x2 : Vec F S1x128 .f32) :
    sout0_A_0 c i arg2 harg2 arg3 harg3 arg4 harg4 arg5 harg5 arg6 harg6 arg7 harg7 hc0 hc1 x0 x1 x2 = k0_pay5 x0 x1 x2 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S8x1) hz2]
  simp only [View.readAt_eq_ld, harg2.read_unread, harg3.read_unread, harg4.read_unread, harg6.read_unread, harg7.read_unread, View.ld_unit_zero (S := S8x128x1024) hz3, View.ld_unit_zero (S := S1x1024) hz2, View.ld_unit_zero (S := S1x128) hz2, View.ld_unit_zero (S := S8x1) hz2, View.ld_unit_zero (S := S8x1024) hz2, View.readCov_unit_zero (S := S8x1) _ hz2, View.readCov_unit_zero (S := S8x1024) _ hz2]

/-- After the first tile `acc` holds the update of the zero block. -/
theorem acc_first (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1x128 .f32) (harg4 : arg4.IsWhole) (arg5 : Memref sig .tc .vmem S8x1024 .f32) (harg5 : arg5.IsWhole) (arg6 : Memref sig .tc .vmem S8x1 .f32) (harg6 : arg6.IsWhole) (arg7 : Memref sig .tc .vmem S8x1024 .f32) (harg7 : arg7.IsWhole) (hc0 : cond0_0 i) (hc1 : ¬cond0_1 i) (x0 : Vec F S8x128x1024 .f32) (x1 : Vec F S1x1024 .f32) (x2 : Vec F S1x128 .f32) :
    sout0_A_1 c i arg2 harg2 arg3 harg3 arg4 harg4 arg5 harg5 arg6 harg6 arg7 harg7 hc0 hc1 x0 x1 x2 = k0_pay6 x0 x1 x2 (k0_pay3 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S8x1024) hz2]
  simp only [View.readAt_eq_ld, harg2.read_unread, harg3.read_unread, harg4.read_unread, harg6.read_unread, harg7.read_unread, View.ld_unit_zero (S := S8x128x1024) hz3, View.ld_unit_zero (S := S1x1024) hz2, View.ld_unit_zero (S := S1x128) hz2, View.ld_unit_zero (S := S8x1) hz2, View.ld_unit_zero (S := S8x1024) hz2, View.readCov_unit_zero (S := S8x1) _ hz2, View.readCov_unit_zero (S := S8x1024) _ hz2]

/-! ## A middle tile: update what the tile before left -/

/-- After a middle tile `l` holds the update of what it held. -/
theorem l_mid (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1x128 .f32) (harg4 : arg4.IsWhole) (arg5 : Memref sig .tc .vmem S8x1024 .f32) (harg5 : arg5.IsWhole) (arg6 : Memref sig .tc .vmem S8x1 .f32) (harg6 : arg6.IsWhole) (arg7 : Memref sig .tc .vmem S8x1024 .f32) (harg7 : arg7.IsWhole) (hc0 : ¬cond0_0 i) (hc1 : ¬cond0_1 i) (x0 : Vec F S8x128x1024 .f32) (x1 : Vec F S1x1024 .f32) (x2 : Vec F S1x128 .f32) (xs0 : Vec F S8x1 .f32) (xs1 : Vec F S8x1024 .f32) :
    sout0_B_0 c i arg2 harg2 arg3 harg3 arg4 harg4 arg5 harg5 arg6 harg6 arg7 harg7 hc0 hc1 x0 x1 x2 xs0 xs1 = k0_pay5 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread, harg7.read_unread, View.ld_unit_zero (S := S8x128x1024) hz3, View.ld_unit_zero (S := S1x1024) hz2, View.ld_unit_zero (S := S1x128) hz2, View.ld_unit_zero (S := S8x1) hz2, View.ld_unit_zero (S := S8x1024) hz2, View.readCov_unit_zero (S := S8x1) _ hz2, View.readCov_unit_zero (S := S8x1024) _ hz2]

/-- After a middle tile `acc` holds the update of what it held. -/
theorem acc_mid (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1x128 .f32) (harg4 : arg4.IsWhole) (arg5 : Memref sig .tc .vmem S8x1024 .f32) (harg5 : arg5.IsWhole) (arg6 : Memref sig .tc .vmem S8x1 .f32) (harg6 : arg6.IsWhole) (arg7 : Memref sig .tc .vmem S8x1024 .f32) (harg7 : arg7.IsWhole) (hc0 : ¬cond0_0 i) (hc1 : ¬cond0_1 i) (x0 : Vec F S8x128x1024 .f32) (x1 : Vec F S1x1024 .f32) (x2 : Vec F S1x128 .f32) (xs0 : Vec F S8x1 .f32) (xs1 : Vec F S8x1024 .f32) :
    sout0_B_1 c i arg2 harg2 arg3 harg3 arg4 harg4 arg5 harg5 arg6 harg6 arg7 harg7 hc0 hc1 x0 x1 x2 xs0 xs1 = k0_pay6 x0 x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread, harg7.read_unread, View.ld_unit_zero (S := S8x128x1024) hz3, View.ld_unit_zero (S := S1x1024) hz2, View.ld_unit_zero (S := S1x128) hz2, View.ld_unit_zero (S := S8x1) hz2, View.ld_unit_zero (S := S8x1024) hz2, View.readCov_unit_zero (S := S8x1) _ hz2, View.readCov_unit_zero (S := S8x1024) _ hz2]

/-! ## The last tile of a chunk: update, then divide -/

/-- After the last tile `l` holds the update of what it held. -/
theorem l_last (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1x128 .f32) (harg4 : arg4.IsWhole) (arg5 : Memref sig .tc .vmem S8x1024 .f32) (harg5 : arg5.IsWhole) (arg6 : Memref sig .tc .vmem S8x1 .f32) (harg6 : arg6.IsWhole) (arg7 : Memref sig .tc .vmem S8x1024 .f32) (harg7 : arg7.IsWhole) (hc0 : ¬cond0_0 i) (hc1 : cond0_1 i) (x0 : Vec F S8x128x1024 .f32) (x1 : Vec F S1x1024 .f32) (x2 : Vec F S1x128 .f32) (xs0 : Vec F S8x1 .f32) (xs1 : Vec F S8x1024 .f32) :
    sout0_C_0 c i arg2 harg2 arg3 harg3 arg4 harg4 arg5 harg5 arg6 harg6 arg7 harg7 hc0 hc1 x0 x1 x2 xs0 xs1 = k0_pay5 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread, View.ld_unit_zero (S := S8x128x1024) hz3, View.ld_unit_zero (S := S1x1024) hz2, View.ld_unit_zero (S := S1x128) hz2, View.ld_unit_zero (S := S8x1) hz2, View.ld_unit_zero (S := S8x1024) hz2, View.readCov_unit_zero (S := S8x1) _ hz2, View.readCov_unit_zero (S := S8x1024) _ hz2]

/-- After the last tile `acc` holds the update of what it held. -/
theorem acc_last (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1x128 .f32) (harg4 : arg4.IsWhole) (arg5 : Memref sig .tc .vmem S8x1024 .f32) (harg5 : arg5.IsWhole) (arg6 : Memref sig .tc .vmem S8x1 .f32) (harg6 : arg6.IsWhole) (arg7 : Memref sig .tc .vmem S8x1024 .f32) (harg7 : arg7.IsWhole) (hc0 : ¬cond0_0 i) (hc1 : cond0_1 i) (x0 : Vec F S8x128x1024 .f32) (x1 : Vec F S1x1024 .f32) (x2 : Vec F S1x128 .f32) (xs0 : Vec F S8x1 .f32) (xs1 : Vec F S8x1024 .f32) :
    sout0_C_1 c i arg2 harg2 arg3 harg3 arg4 harg4 arg5 harg5 arg6 harg6 arg7 harg7 hc0 hc1 x0 x1 x2 xs0 xs1 = k0_pay6 x0 x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread, View.ld_unit_zero (S := S8x128x1024) hz3, View.ld_unit_zero (S := S1x1024) hz2, View.ld_unit_zero (S := S1x128) hz2, View.ld_unit_zero (S := S8x1) hz2, View.ld_unit_zero (S := S8x1024) hz2, View.readCov_unit_zero (S := S8x1) _ hz2, View.readCov_unit_zero (S := S8x1024) _ hz2]

/-- The output block the last tile stores: the updated `acc` divided by the updated `l`. -/
theorem out_last (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1x128 .f32) (harg4 : arg4.IsWhole) (arg5 : Memref sig .tc .vmem S8x1024 .f32) (harg5 : arg5.IsWhole) (arg6 : Memref sig .tc .vmem S8x1 .f32) (harg6 : arg6.IsWhole) (arg7 : Memref sig .tc .vmem S8x1024 .f32) (harg7 : arg7.IsWhole) (hc0 : ¬cond0_0 i) (hc1 : cond0_1 i) (x0 : Vec F S8x128x1024 .f32) (x1 : Vec F S1x1024 .f32) (x2 : Vec F S1x128 .f32) (xs0 : Vec F S8x1 .f32) (xs1 : Vec F S8x1024 .f32) :
    out0_C_3 c i arg2 harg2 arg3 harg3 arg4 harg4 arg5 harg5 arg6 harg6 arg7 harg7 hc0 hc1 x0 x1 x2 xs0 xs1 = k0_pay1 (k0_pay6 x0 x1 x2 xs1) (k0_pay5 x0 x1 x2 xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread, View.ld_unit_zero (S := S8x128x1024) hz3, View.ld_unit_zero (S := S1x1024) hz2, View.ld_unit_zero (S := S1x128) hz2, View.ld_unit_zero (S := S8x1) hz2, View.ld_unit_zero (S := S8x1024) hz2, View.readCov_unit_zero (S := S8x1) _ hz2, View.readCov_unit_zero (S := S8x1024) _ hz2]

end Cert.KernelIdeal.PoolValue

end
-- ==== Proof.KernelPayload.lean ====
/-
  The body's arithmetic read at an index, on the extended reals.

  For one grid point with input blocks `x` ([8, 128, 1024]: eight rows, a tile of 128 time steps, the features),
  `w` ([1, 1024]) and `β` ([1, 128]):
    the weight of row `p` at time step `r` is  `exp (tanh (∑ k, x p r k * w k + β r))`;
    `l` is updated by adding the tile's sum of weights;
    `acc` at feature `d` is updated by adding the tile's sum of `weight * x p r d`;
    the output block is `acc / l`, each row divided by its own `l`.
-/
import proofs.«403637_j37976100831584_4_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PoolValue

open Cert.KernelIdeal Cert.KernelIdeal.Gen Idealize.ShloMosaic Idealize.ShloMosaic.ValueIdx

/-! ## The layout operations of the body, read at an index -/

section Layout
variable {α : Type}

/-- The weight row `[1, 1, 1024]` broadcast over rows and time steps reads its feature coordinate. -/
theorem bcast_feature (v : S1x1x1024.Idx → α) (h : S1x1x1024.Broadcasts S8x128x1024) (p : Fin 8) (r : Fin 128)
    (k : Fin 1024) : broadcastTo S8x128x1024 v h (ix3 p r k) = v (ix3 (0 : Fin 1) (0 : Fin 1) k) :=
  broadcastTo_apply v h (ix3 p r k) (ix3 (0 : Fin 1) (0 : Fin 1) k) fun a => by
    match a with
    | ⟨0, _⟩ => rfl
    | ⟨1, _⟩ => rfl
    | ⟨2, _⟩ => show k.val = if (1024 : Nat) = 1 then 0 else k.val; rw [if_neg (by decide)]

/-- The weights `[8, 128, 1]` broadcast over the features read their row and time step. -/
theorem bcast_time (v : S8x128x1.Idx → α) (h : S8x128x1.Broadcasts S8x128x1024) (p : Fin 8) (r : Fin 128)
    (d : Fin 1024) : broadcastTo S8x128x1024 v h (ix3 p r d) = v (ix3 p r (0 : Fin 1)) :=
  broadcastTo_apply v h (ix3 p r d) (ix3 p r (0 : Fin 1)) fun a => by
    match a with
    | ⟨0, _⟩ => show p.val = if (8 : Nat) = 1 then 0 else p.val; rw [if_neg (by decide)]
    | ⟨1, _⟩ => show r.val = if (128 : Nat) = 1 then 0 else r.val; rw [if_neg (by decide)]
    | ⟨2, _⟩ => rfl

/-- The column `[8, 1]` broadcast over the features reads its row. -/
theorem bcast_col (v : S8x1.Idx → α) (h : S8x1.Broadcasts S8x1024) (p : Fin 8) (d : Fin 1024) :
    broadcastTo S8x1024 v h (ix2 p d) = v (ix2 p (0 : Fin 1)) :=
  broadcastTo_apply v h (ix2 p d) (ix2 p (0 : Fin 1)) fun a => by
    match a with
    | ⟨0, _⟩ => show p.val = if (8 : Nat) = 1 then 0 else p.val; rw [if_neg (by decide)]
    | ⟨1, _⟩ => rfl

/-- A vector `[8]` viewed as a column `[8, 1]`. -/
theorem cast_col (v : S8.Idx → α) (h : S8.ShapeCasts S8x1) (p : Fin 8) :
    shapeCast S8x1 v h (ix2 p (0 : Fin 1)) = v (ix1 p) :=
  shapeCast_apply v h _ _ (by
    rw [Shape.rowMajor_val_one, Shape.rowMajor_val_two]
    show p.val = p.val * 1 + 0
    omega)

/-- An array `[8, 128]` viewed as `[8, 128, 1]`. -/
theorem cast_unit_last (v : S8x128.Idx → α) (h : S8x128.ShapeCasts S8x128x1) (p : Fin 8) (r : Fin 128) :
    shapeCast S8x128x1 v h (ix3 p r (0 : Fin 1)) = v (ix2 p r) :=
  shapeCast_apply v h _ _ (by
    rw [Shape.rowMajor_val_two, Shape.rowMajor_val_three]
    show p.val * 128 + r.val = (p.val * 128 + r.val) * 1 + 0
    omega)

end Layout

/-! ## The three lane and sublane sums of the body -/

/-- The sum over the features. -/
theorem sum_features (v : FVec Ideal S8x128x1024 .f32) (h : S8x128x1024.Reduces [2] S8x128) (hφ : FKind.Formats .f32)
    (hacc : (0x00000000#32 : BitVec 32) = FKind.add.neutral .f32 hφ) (p : Fin 8) (r : Fin 128) :
    multiReduction .add [2] S8x128 v 0x00000000#32 h hφ hacc (ix2 p r) = ∑ k : Fin 1024, v (ix3 p r k) :=
  (Ideal.multiReduction_add_single v _ h hφ hacc (ix2 p r)).trans
    (Finset.sum_congr rfl fun k _ => congrArg v (funext fun a => Fin.ext (by
      match a with | ⟨0, _⟩ => rfl | ⟨1, _⟩ => rfl | ⟨2, _⟩ => rfl)))

/-- The sum over the tile's time steps of an array `[8, 128]`. -/
theorem sum_tile (v : FVec Ideal S8x128 .f32) (h : S8x128.Reduces [1] S8) (hφ : FKind.Formats .f32)
    (hacc : (0x00000000#32 : BitVec 32) = FKind.add.neutral .f32 hφ) (p : Fin 8) :
    multiReduction .add [1] S8 v 0x00000000#32 h hφ hacc (ix1 p) = ∑ r : Fin 128, v (ix2 p r) :=
  (Ideal.multiReduction_add_single v _ h hφ hacc (ix1 p)).trans
    (Finset.sum_congr rfl fun r _ => congrArg v (funext fun a => Fin.ext (by
      match a with | ⟨0, _⟩ => rfl | ⟨1, _⟩ => rfl)))

/-- The sum over the tile's time steps of an array `[8, 128, 1024]`. -/
theorem sum_tile_features (v : FVec Ideal S8x128x1024 .f32) (h : S8x128x1024.Reduces [1] S8x1024)
    (hφ : FKind.Formats .f32) (hacc : (0x00000000#32 : BitVec 32) = FKind.add.neutral .f32 hφ) (p : Fin 8)
    (d : Fin 1024) :
    multiReduction .add [1] S8x1024 v 0x00000000#32 h hφ hacc (ix2 p d) = ∑ r : Fin 128, v (ix3 p r d) :=
  (Ideal.multiReduction_add_single v _ h hφ hacc (ix2 p d)).trans
    (Finset.sum_congr rfl fun r _ => congrArg v (funext fun a => Fin.ext (by
      match a with | ⟨0, _⟩ => rfl | ⟨1, _⟩ => rfl | ⟨2, _⟩ => rfl)))

/-! ## The body's values at an index -/

/-- The weight of row `p` at the tile's time step `r`. -/
theorem weight_at (x0 : Vec Ideal S8x128x1024 .f32) (x1 : Vec Ideal S1x1024 .f32) (x2 : Vec Ideal S1x128 .f32)
    (p : Fin 8) (r : Fin 128) :
    k0_pay4 x0 x1 x2 (ix2 p r)
      = Ideal.exp (Ideal.tanh (∑ k : Fin 1024, x0 (ix3 p r k) * x1 (ix2 (0 : Fin 1) k) + x2 (ix2 (0 : Fin 1) r))) := by
  unfold k0_pay4
  refine congrArg Ideal.exp (congrArg Ideal.tanh (congrArg₂ (· + ·) ?_ ?_))
  · refine (sum_features _ _ _ _ p r).trans (Finset.sum_congr rfl fun k _ => ?_)
    refine congrArg (x0 (ix3 p r k) * ·) ?_
    exact (bcast_feature _ _ p r k).trans
      ((shapeCast_ab_1ab_apply _ _ (0 : Fin 1) (0 : Fin 1) k).trans (congrFun (shapeCast_self _ _) _))
  · exact (broadcastTo_1b_ab_apply _ _ p r).trans (congrFun (shapeCast_self _ _) _)

/-- `l` after a point: what it held plus the tile's sum of weights. -/
theorem l_update_at (x0 : Vec Ideal S8x128x1024 .f32) (x1 : Vec Ideal S1x1024 .f32) (x2 : Vec Ideal S1x128 .f32)
    (a : Vec Ideal S8x1 .f32) (p : Fin 8) :
    k0_pay5 x0 x1 x2 a (ix2 p (0 : Fin 1))
      = a (ix2 p (0 : Fin 1)) + ∑ r : Fin 128, k0_pay4 x0 x1 x2 (ix2 p r) := by
  unfold k0_pay5
  refine (congrFun (shapeCast_self _ _) _).trans ?_
  refine congrArg (a (ix2 p (0 : Fin 1)) + ·) ?_
  exact (cast_col _ _ p).trans (sum_tile _ _ _ _ p)

/-- `acc` after a point: what it held plus the tile's weighted sum of the rows. -/
theorem acc_update_at (x0 : Vec Ideal S8x128x1024 .f32) (x1 : Vec Ideal S1x1024 .f32) (x2 : Vec Ideal S1x128 .f32)
    (a : Vec Ideal S8x1024 .f32) (p : Fin 8) (d : Fin 1024) :
    k0_pay6 x0 x1 x2 a (ix2 p d)
      = a (ix2 p d) + ∑ r : Fin 128, k0_pay4 x0 x1 x2 (ix2 p r) * x0 (ix3 p r d) := by
  unfold k0_pay6
  refine (congrFun (shapeCast_self _ _) _).trans ?_
  refine congrArg (a (ix2 p d) + ·) ?_
  refine (sum_tile_features _ _ _ _ p d).trans (Finset.sum_congr rfl fun r _ => ?_)
  refine congrArg (· * x0 (ix3 p r d)) ?_
  exact (bcast_time _ _ p r d).trans (cast_unit_last _ _ p r)

/-- The output block: `acc` divided, row by row, by `l`. -/
theorem quotient_at (a : Vec Ideal S8x1024 .f32) (l : Vec Ideal S8x1 .f32) (p : Fin 8) (d : Fin 1024) :
    k0_pay1 a l (ix2 p d) = Ideal.div (a (ix2 p d)) (l (ix2 p (0 : Fin 1))) := by
  unfold k0_pay1
  exact congrArg (Ideal.div (a (ix2 p d))) (bcast_col _ _ p d)

/-- The reset value of `l` is zero. -/
theorem l_zero_at (p : Fin 8) : k0_pay2 (F := Ideal) (ix2 p (0 : Fin 1)) = 0 := by
  unfold k0_pay2
  refine (congrFun (shapeCast_self _ _) _).trans ?_
  exact Ideal.ofBits_zero_f32

/-- The reset value of `acc` is zero. -/
theorem acc_zero_at (p : Fin 8) (d : Fin 1024) : k0_pay3 (F := Ideal) (ix2 p d) = 0 := by
  unfold k0_pay3
  refine (congrFun (shapeCast_self _ _) _).trans ?_
  exact Ideal.ofBits_zero_f32

end Cert.KernelIdeal.PoolValue

end
-- ==== Proof.SoftmaxPool.lean ====
/-
  Attention pooling over time, written two ways on the extended reals.

  For a row `b` let `s t = tanh (∑ k, x t k * w k + β t)` be the score of time step `t` and `e t = exp (s t)`.
  One side forms the two plain sums `∑ t, e t * x t d` and `∑ t, e t` and divides once at the end.  The other side
  is the textbook softmax: it subtracts a shift `M` (the row's maximum) from every score, normalises each weight
  `exp (s t - M) / ∑ t', exp (s t' - M)`, multiplies by `x t d` and sums.  Over the reals the two agree for ANY
  shift, because `exp (s - M) = exp s / exp M` and the common factor `exp M` cancels; on the extended reals the
  cancellation needs every quantity to be a real number, which is what the hypotheses say.
-/
import Idealize.ShloMosaic.PureOps.Ideal
import Idealize.ShloMosaic.PureOps.Ideal.Laws
import Idealize.ShloMosaic.Lib.ValueIdx
import Mathlib.Data.Finset.Fold

noncomputable section

namespace Cert.SoftmaxPool

open Idealize.ShloMosaic Idealize.ShloMosaic.ValueIdx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- Over the reals: softmax weights taken after ANY shift `M` of the scores, applied to `x` and summed, are the
    quotient of the two unshifted sums. -/
theorem real_pool {T : Type*} [Fintype T] (s x : T → ℝ) (M : ℝ) :
    ∑ t, Real.exp (s t - M) / (∑ t', Real.exp (s t' - M)) * x t
      = (∑ t, Real.exp (s t) * x t) / ∑ t, Real.exp (s t) := by
  have hM : Real.exp M ≠ 0 := (Real.exp_pos M).ne'
  simp only [Real.exp_sub]
  rw [← Finset.sum_div]
  simp only [div_div_div_cancel_right₀ hM]
  rw [Finset.sum_div]
  exact Finset.sum_congr rfl fun t _ => div_mul_eq_mul_div _ _ _

/-- A maximum of reals over a nonempty finite index set, folded from `⊥`, is a real. -/
theorem fold_max_real {T : Type*} [Fintype T] [Nonempty T] (s : T → ℝ) :
    ∃ r : ℝ, (Finset.univ : Finset T).fold max (⊥ : EReal) (fun t => (s t : EReal)) = r := by
  have hlt : (Finset.univ : Finset T).fold max (⊥ : EReal) (fun t => (s t : EReal)) < ⊤ :=
    (Finset.fold_max_lt _).mpr ⟨bot_lt_top, fun t _ => EReal.coe_lt_top _⟩
  have hgt : ⊥ < (Finset.univ : Finset T).fold max (⊥ : EReal) (fun t => (s t : EReal)) :=
    (Finset.lt_fold_max _).mpr (Or.inr ⟨Classical.arbitrary T, Finset.mem_univ _, EReal.bot_lt_coe _⟩)
  exact ⟨_, (EReal.coe_toReal hlt.ne hgt.ne').symm⟩

/-- The same for any array of reals. -/
theorem fold_max_real' {T : Type*} [Fintype T] [Nonempty T] (f : T → EReal) (hf : ∀ t, ∃ r : ℝ, f t = r) :
    ∃ r : ℝ, (Finset.univ : Finset T).fold max (⊥ : EReal) f = r := by
  choose s hs using hf
  obtain rfl : f = fun t => (s t : EReal) := funext hs
  exact fold_max_real s

/-- A score `tanh (∑ k, x k * w k + β)` of real data is a real. -/
theorem score_real {K : Type*} [Fintype K] (X W : K → EReal) (β : EReal)
    (hX : ∀ k, ∃ r : ℝ, X k = r) (hW : ∀ k, ∃ r : ℝ, W k = r) (hβ : ∃ r : ℝ, β = r) :
    ∃ r : ℝ, Ideal.tanh (∑ k, X k * W k + β) = r := by
  choose x hx using hX
  choose w hw using hW
  obtain ⟨b, rfl⟩ := hβ
  refine ⟨Real.tanh (∑ k, x k * w k + b), ?_⟩
  simp only [hx, hw, ← EReal.coe_mul, ← coe_sum, ← EReal.coe_add, Ideal.tanh_coe]

/-- THE LAW. For real scores `S`, real data `Xd` and a real shift `M`, over a nonempty finite set of time steps:
    dividing the weighted sum `∑ exp (S t) * Xd t` once by `∑ exp (S t)` is the sum of the data under the
    softmax weights of the shifted scores. -/
theorem pool_eq {T : Type*} [Fintype T] [Nonempty T] (S Xd : T → EReal) (M : EReal)
    (hS : ∀ t, ∃ r : ℝ, S t = r) (hXd : ∀ t, ∃ r : ℝ, Xd t = r) (hM : ∃ r : ℝ, M = r) :
    Ideal.div (∑ t, Ideal.exp (S t) * Xd t) (∑ t, Ideal.exp (S t))
      = ∑ t, Ideal.div (Ideal.exp (S t - M)) (∑ t', Ideal.exp (S t' - M)) * Xd t := by
  choose s hs using hS
  choose x hx using hXd
  obtain ⟨μ, rfl⟩ := hM
  have hpos : ∀ ν : ℝ, (∑ t, Real.exp (s t - ν)) ≠ 0 := fun ν =>
    (Finset.sum_pos (fun t _ => Real.exp_pos _) Finset.univ_nonempty).ne'
  have hpos0 : (∑ t, Real.exp (s t)) ≠ 0 :=
    (Finset.sum_pos (fun t _ => Real.exp_pos _) Finset.univ_nonempty).ne'
  simp only [hs, hx, ← EReal.coe_sub, Ideal.exp_coe, ← EReal.coe_mul, ← coe_sum]
  rw [div_coe_coe _ _ hpos0]
  simp only [div_coe_coe _ _ (hpos μ), ← EReal.coe_mul, ← coe_sum]
  exact congrArg _ (real_pool s x μ).symm

/-! ## The pooled array

`x : [32, 2048, 1024]` (row, time step, feature), `w : [1024, 1]`, `β : [2048, 1]`; the result is `[32, 1024]`. -/

/-- The score of time step `t` of row `b`: `tanh (∑ k, x b t k * w k + β t)`. -/
def score (X : (⟨3, ![32, 2048, 1024]⟩ : Shape).Idx → EReal) (W : (⟨2, ![1024, 1]⟩ : Shape).Idx → EReal)
    (β : (⟨2, ![2048, 1]⟩ : Shape).Idx → EReal) (b : Fin 32) (t : Fin 2048) : EReal :=
  Ideal.tanh (∑ k : Fin 1024, X (ix3 b t k) * W (ix2 k (0 : Fin 1)) + β (ix2 t (0 : Fin 1)))

/-- The pooled array: at `(b, d)` the sum over time of `exp (score b t) * x b t d`, divided by the sum over time
    of `exp (score b t)`. -/
def pooled (X : (⟨3, ![32, 2048, 1024]⟩ : Shape).Idx → EReal) (W : (⟨2, ![1024, 1]⟩ : Shape).Idx → EReal)
    (β : (⟨2, ![2048, 1]⟩ : Shape).Idx → EReal) : (⟨2, ![32, 1024]⟩ : Shape).Idx → EReal := fun i =>
  Ideal.div (∑ t : Fin 2048, Ideal.exp (score X W β (i 0) t) * X (ix3 (i 0) t (i 1)))
    (∑ t : Fin 2048, Ideal.exp (score X W β (i 0) t))

/-- A score of real data is a real. -/
theorem score_is_real (X : (⟨3, ![32, 2048, 1024]⟩ : Shape).Idx → EReal) (W : (⟨2, ![1024, 1]⟩ : Shape).Idx → EReal)
    (β : (⟨2, ![2048, 1]⟩ : Shape).Idx → EReal) (hX : ∀ i, ∃ r : ℝ, X i = r) (hW : ∀ i, ∃ r : ℝ, W i = r)
    (hβ : ∀ i, ∃ r : ℝ, β i = r) (b : Fin 32) (t : Fin 2048) : ∃ r : ℝ, score X W β b t = r :=
  score_real (fun k : Fin 1024 => X (ix3 b t k)) (fun k : Fin 1024 => W (ix2 k (0 : Fin 1))) _
    (fun _ => hX _) (fun _ => hW _) (hβ _)

end Cert.SoftmaxPool

end
-- ==== Proof.KernelTiles.lean ====
/-
  The two accumulators after each grid point, as partial sums over time.

  The grid is (batch chunk `q`, time tile `j`), point `t = 16 q + j`.  The blocks the pipeline stages at `t` are
  rows `8 q … 8 q + 7` and time steps `128 j … 128 j + 127` of `x`, the whole of `w` and time steps
  `128 j … 128 j + 127` of `β`.  So the weight the body computes for row `p` at the tile's step `r` is
  `exp (score (8 q + p) (128 j + r))`, and after point `t` the accumulators hold, for row `8 q + p`, the sums of
  the weights and of `weight * x` over the time steps `0 … 128 (j + 1) - 1`: by induction on the point, a reset at
  `j = 0` and one more tile at every other point.  At `j = 15` the sums run over all 2048 steps, and the output
  block is their quotient.
-/
import proofs.«403637_j37976100831584_4_alg».proof.Proof.Gen.KernelIdeal.Value
import proofs.«403637_j37976100831584_4_alg».proof.Proof.KernelPieces
import proofs.«403637_j37976100831584_4_alg».proof.Proof.KernelPayload
import proofs.«403637_j37976100831584_4_alg».proof.Proof.SoftmaxPool
import Idealize.ShloMosaic.Lib.StableHlo.Run
import Mathlib.Algebra.BigOperators.Fin

noncomputable section

namespace Cert.KernelIdeal.PoolValue

open Cert.KernelIdeal Cert.KernelIdeal.Gen Idealize.ShloMosaic Idealize.ShloMosaic.TcCoe Idealize.SL.Sem
open Idealize.ShloMosaic.Pipeline (Dat)
open Idealize.ShloMosaic.ValueIdx Cert.SoftmaxPool

variable (m : (ℓ : Loc nD τ sig) → Buf (Elt Ideal) ℓ)

/-! ## The arguments and the blocks, at their literal types -/

/-- `x`, `w` and `β` as launched. -/
abbrev argX (c : Dev nD) : FVec Ideal S32x2048x1024 .f32 := m ((c : Thread nD τ).loc main_arg0)
abbrev argW (c : Dev nD) : FVec Ideal S1024x1 .f32 := m ((c : Thread nD τ).loc main_arg1)
abbrev argβ (c : Dev nD) : FVec Ideal S2048x1 .f32 := m ((c : Thread nD τ).loc main_arg2)

/-- The three input blocks at point `t`. -/
abbrev xblk (c : Dev nD) (t : Fin cfg0.N) : Vec Ideal S8x128x1024 .f32 := iblk m c 0 t
abbrev wblk (c : Dev nD) (t : Fin cfg0.N) : Vec Ideal S1x1024 .f32 := iblk m c 1 t
abbrev bblk (c : Dev nD) (t : Fin cfg0.N) : Vec Ideal S1x128 .f32 := iblk m c 2 t

/-- The block indices over the grid: `x`'s block is (chunk, tile, 0), `w`'s (0, 0), `β`'s (0, tile), the output's
    (chunk, 0). -/
theorem idx_facts : ∀ t : Fin cfg0.N, win0_0.index t (0 : Fin 3) = t.val / 16 ∧ win0_0.index t (1 : Fin 3) = t.val % 16
    ∧ win0_0.index t (2 : Fin 3) = 0 ∧ win0_1.index t (0 : Fin 2) = 0 ∧ win0_1.index t (1 : Fin 2) = 0
    ∧ win0_2.index t (0 : Fin 2) = 0 ∧ win0_2.index t (1 : Fin 2) = t.val % 16
    ∧ win0_3.index t (0 : Fin 2) = t.val / 16 ∧ win0_3.index t (1 : Fin 2) = 0 :=
  (by decide +kernel : ∀ t : Fin grid0.N, _)

/-- `x`'s block at `t` holds rows `8 (t / 16) + p` and time steps `128 (t % 16) + r`. -/
theorem xblk_at (c : Dev nD) (t : Fin cfg0.N) (p : Fin 8) (r : Fin 128) (k : Fin 1024)
    (hb : 8 * (t.val / 16) + p.val < 32) (hu : 128 * (t.val % 16) + r.val < 2048) :
    xblk m c t (ix3 p r k)
      = argX m c (ix3 (⟨8 * (t.val / 16) + p.val, hb⟩ : Fin 32) (⟨128 * (t.val % 16) + r.val, hu⟩ : Fin 2048) k) := by
  obtain ⟨e0, e1, e2, -⟩ := idx_facts t
  show iblk m c 0 t (ix3 p r k) = _
  unfold iblk
  rw [View.read_apply]
  show V m c main_arg0 _ = _
  refine (congrFun (V_main_arg0 m c) _).trans ?_
  refine congrArg (m ((c : Thread nD τ).loc main_arg0)) (funext fun a => Fin.ext ?_)
  match a with
  | ⟨0, _⟩ => show win0_0.index t (0 : Fin 3) * 8 + 1 * p.val = 8 * (t.val / 16) + p.val; omega
  | ⟨1, _⟩ => show win0_0.index t (1 : Fin 3) * 128 + 1 * r.val = 128 * (t.val % 16) + r.val; omega
  | ⟨2, _⟩ => show win0_0.index t (2 : Fin 3) * 1024 + 1 * k.val = k.val; omega

/-- The row vector the region finds for `w`: the column `[1024, 1]` flattened and viewed `[1, 1024]`. -/
theorem V_w (c : Dev nD) :
    (V m c main_v1 : S1x1024.Idx → EReal)
      = shapeCast S1x1024 (shapeCast S1024 (argW m c) shapeCasts_S1024x1_S1024) shapeCasts_S1024_S1x1024 := by
  dsimp only [V, hostOps0]
  after_results
  rfl

/-- The row vector the region finds for `β`: the column `[2048, 1]` flattened and viewed `[1, 2048]`. -/
theorem V_β (c : Dev nD) :
    (V m c main_v3 : S1x2048.Idx → EReal)
      = shapeCast S1x2048 (shapeCast S2048 (argβ m c) shapeCasts_S2048x1_S2048) shapeCasts_S2048_S1x2048 := by
  dsimp only [V, hostOps0]
  after_results
  rfl

/-- `w`'s block is the whole row vector: entry `k` is `w k`. -/
theorem wblk_at (c : Dev nD) (t : Fin cfg0.N) (k : Fin 1024) :
    wblk m c t (ix2 (0 : Fin 1) k) = argW m c (ix2 k (0 : Fin 1)) := by
  obtain ⟨-, -, -, e3, e4, -⟩ := idx_facts t
  show iblk m c 1 t (ix2 (0 : Fin 1) k) = _
  unfold iblk
  rw [View.read_apply]
  have he : ((cfg0.win 1).blk t).view.emb (ix2 (0 : Fin 1) k) = ix2 (0 : Fin 1) k := funext fun a => Fin.ext (by
    match a with
    | ⟨0, _⟩ => show win0_1.index t (0 : Fin 2) * 1 + 1 * 0 = 0; omega
    | ⟨1, _⟩ => show win0_1.index t (1 : Fin 2) * 1024 + 1 * k.val = k.val; omega)
  rw [he]
  show V m c main_v1 (ix2 (0 : Fin 1) k) = _
  refine (congrFun (V_w m c) _).trans ?_
  refine (shapeCast_apply _ _ (ix2 (0 : Fin 1) k) (ix1 k) ?_).trans (shapeCast_apply _ _ (ix1 k) (ix2 k (0 : Fin 1)) ?_)
  · rw [Shape.rowMajor_val_one, Shape.rowMajor_val_two]
    show k.val = 0 * 1024 + k.val
    omega
  · rw [Shape.rowMajor_val_one, Shape.rowMajor_val_two]
    show k.val * 1 + 0 = k.val
    omega

/-- `β`'s block at `t` holds time steps `128 (t % 16) + r`. -/
theorem bblk_at (c : Dev nD) (t : Fin cfg0.N) (r : Fin 128) (hu : 128 * (t.val % 16) + r.val < 2048) :
    bblk m c t (ix2 (0 : Fin 1) r) = argβ m c (ix2 (⟨128 * (t.val % 16) + r.val, hu⟩ : Fin 2048) (0 : Fin 1)) := by
  obtain ⟨-, -, -, -, -, e5, e6, -⟩ := idx_facts t
  show iblk m c 2 t (ix2 (0 : Fin 1) r) = _
  unfold iblk
  rw [View.read_apply]
  have he : ((cfg0.win 2).blk t).view.emb (ix2 (0 : Fin 1) r)
      = ix2 (0 : Fin 1) (⟨128 * (t.val % 16) + r.val, hu⟩ : Fin 2048) := funext fun a => Fin.ext (by
    match a with
    | ⟨0, _⟩ => show win0_2.index t (0 : Fin 2) * 1 + 1 * 0 = 0; omega
    | ⟨1, _⟩ => show win0_2.index t (1 : Fin 2) * 128 + 1 * r.val = 128 * (t.val % 16) + r.val; omega)
  rw [he]
  show V m c main_v3 (ix2 (0 : Fin 1) (⟨128 * (t.val % 16) + r.val, hu⟩ : Fin 2048)) = _
  refine (congrFun (V_β m c) _).trans ?_
  refine (shapeCast_apply _ _ (ix2 (0 : Fin 1) (⟨128 * (t.val % 16) + r.val, hu⟩ : Fin 2048))
    (ix1 (⟨128 * (t.val % 16) + r.val, hu⟩ : Fin 2048)) ?_).trans
    (shapeCast_apply _ _ (ix1 (⟨128 * (t.val % 16) + r.val, hu⟩ : Fin 2048))
      (ix2 (⟨128 * (t.val % 16) + r.val, hu⟩ : Fin 2048) (0 : Fin 1)) ?_)
  · rw [Shape.rowMajor_val_one, Shape.rowMajor_val_two]
    show 128 * (t.val % 16) + r.val = 0 * 2048 + (128 * (t.val % 16) + r.val)
    omega
  · rw [Shape.rowMajor_val_one, Shape.rowMajor_val_two]
    show (128 * (t.val % 16) + r.val) * 1 + 0 = 128 * (t.val % 16) + r.val
    omega

/-! ## What one point does to the accumulators -/

/-- The weight the body computes at point `t` for row `p` at the tile's time step `r`. -/
def wgt (c : Dev nD) (t : Fin cfg0.N) (p : Fin 8) (r : Fin 128) : EReal :=
  k0_pay4 (xblk m c t) (wblk m c t) (bblk m c t) (ix2 p r)

/-- At the first tile of a chunk `l` is the tile's sum of weights. -/
theorem l_reset (c : Dev nD) (t : Fin cfg0.N) (h0 : t.val % 16 = 0) (p : Fin 8) :
    (outsAt0 m c t.val t.isLt).2.1 (ix2 p (0 : Fin 1)) = ∑ r : Fin 128, wgt m c t p r := by
  have h1 : ¬t.val % 16 = 15 := by omega
  rw [outsAt0_A m c t h0 h1]
  dsimp only
  refine (congrFun (l_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xblk m c t) (wblk m c t) (bblk m c t)) (ix2 p (0 : Fin 1))).trans ?_
  refine (l_update_at (xblk m c t) (wblk m c t) (bblk m c t) (k0_pay2 (F := Ideal)) p).trans ?_
  rw [l_zero_at, zero_add]
  rfl

/-- At every other tile `l` grows by the tile's sum of weights. -/
theorem l_step (c : Dev nD) (t : Fin cfg0.N) (h0 : ¬t.val % 16 = 0) (p : Fin 8) :
    (outsAt0 m c t.val t.isLt).2.1 (ix2 p (0 : Fin 1))
      = (outsAt0 m c (t.val - 1) (Nat.lt_of_le_of_lt (Nat.sub_le _ _) t.isLt)).2.1 (ix2 p (0 : Fin 1)) + ∑ r : Fin 128, wgt m c t p r := by
  by_cases h1 : t.val % 16 = 15
  · rw [outsAt0_C m c t h0 h1]
    dsimp only
    refine (congrFun (l_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    exact l_update_at (xblk m c t) (wblk m c t) (bblk m c t) (outsAt0 m c (t.val - 1) (Nat.lt_of_le_of_lt (Nat.sub_le _ _) t.isLt)).2.1 p
  · rw [outsAt0_B m c t h0 h1]
    dsimp only
    refine (congrFun (l_mid (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    exact l_update_at (xblk m c t) (wblk m c t) (bblk m c t) (outsAt0 m c (t.val - 1) (Nat.lt_of_le_of_lt (Nat.sub_le _ _) t.isLt)).2.1 p

/-- At the first tile of a chunk `acc` is the tile's weighted sum of the rows. -/
theorem acc_reset (c : Dev nD) (t : Fin cfg0.N) (h0 : t.val % 16 = 0) (p : Fin 8) (d : Fin 1024) :
    (outsAt0 m c t.val t.isLt).2.2 (ix2 p d) = ∑ r : Fin 128, wgt m c t p r * xblk m c t (ix3 p r d) := by
  have h1 : ¬t.val % 16 = 15 := by omega
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xblk m c t) (wblk m c t) (bblk m c t)) (ix2 p d)).trans ?_
  refine (acc_update_at (xblk m c t) (wblk m c t) (bblk m c t) (k0_pay3 (F := Ideal)) p d).trans ?_
  rw [acc_zero_at, zero_add]
  rfl

/-- At every other tile `acc` grows by the tile's weighted sum of the rows. -/
theorem acc_step (c : Dev nD) (t : Fin cfg0.N) (h0 : ¬t.val % 16 = 0) (p : Fin 8) (d : Fin 1024) :
    (outsAt0 m c t.val t.isLt).2.2 (ix2 p d)
      = (outsAt0 m c (t.val - 1) (Nat.lt_of_le_of_lt (Nat.sub_le _ _) t.isLt)).2.2 (ix2 p d) + ∑ r : Fin 128, wgt m c t p r * xblk m c t (ix3 p r d) := by
  by_cases h1 : t.val % 16 = 15
  · rw [outsAt0_C m c t h0 h1]
    dsimp only
    refine (congrFun (acc_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).trans ?_
    exact acc_update_at (xblk m c t) (wblk m c t) (bblk m c t) (outsAt0 m c (t.val - 1) (Nat.lt_of_le_of_lt (Nat.sub_le _ _) t.isLt)).2.2 p d
  · rw [outsAt0_B m c t h0 h1]
    dsimp only
    refine (congrFun (acc_mid (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).trans ?_
    exact acc_update_at (xblk m c t) (wblk m c t) (bblk m c t) (outsAt0 m c (t.val - 1) (Nat.lt_of_le_of_lt (Nat.sub_le _ _) t.isLt)).2.2 p d

/-- At the last tile of a chunk the output block is `acc / l` of the accumulators as that tile leaves them. -/
theorem out_at (c : Dev nD) (t : Fin cfg0.N) (h1 : t.val % 16 = 15) (p : Fin 8) (d : Fin 1024) :
    (outsAt0 m c t.val t.isLt).1 (ix2 p d)
      = Ideal.div ((outsAt0 m c t.val t.isLt).2.2 (ix2 p d)) ((outsAt0 m c t.val t.isLt).2.1 (ix2 p (0 : Fin 1))) := by
  have h0 : ¬t.val % 16 = 0 := by omega
  rw [outsAt0_C m c t h0 h1]
  dsimp only
  refine (congrFun (out_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).trans ?_
  refine (quotient_at _ _ p d).trans ?_
  exact congrArg₂ Ideal.div
    (congrFun (acc_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p d)).symm
    (congrFun (l_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).symm

/-! ## The weights and the rows by absolute row and time step -/

/-- `exp (score b u)` for a row `b < 32` and a time step `u < 2048` given as naturals (zero elsewhere). -/
def eN (c : Dev nD) (b u : ℕ) : EReal :=
  if h : b < 32 ∧ u < 2048 then Ideal.exp (score (argX m c) (argW m c) (argβ m c) ⟨b, h.1⟩ ⟨u, h.2⟩) else 0

/-- `x b u d` for a row `b < 32` and a time step `u < 2048` given as naturals (zero elsewhere). -/
def xN (c : Dev nD) (b u : ℕ) (d : Fin 1024) : EReal :=
  if h : b < 32 ∧ u < 2048 then argX m c (ix3 (⟨b, h.1⟩ : Fin 32) (⟨u, h.2⟩ : Fin 2048) d) else 0

/-- The rows of `x`'s block at `t` by absolute row and time step. -/
theorem xblk_eq (c : Dev nD) (t : Fin cfg0.N) (p : Fin 8) (r : Fin 128) (d : Fin 1024) :
    xblk m c t (ix3 p r d) = xN m c (8 * (t.val / 16) + p.val) (128 * (t.val % 16) + r.val) d := by
  have hN : t.val < 64 := lt_of_lt_of_eq t.isLt (show cfg0.N = 64 from N_0)
  have hb : 8 * (t.val / 16) + p.val < 32 := by have := p.isLt; omega
  have hu : 128 * (t.val % 16) + r.val < 2048 := by have := r.isLt; omega
  unfold xN
  rw [dif_pos ⟨hb, hu⟩]
  exact xblk_at m c t p r d hb hu

/-- The weight at point `t` by absolute row and time step. -/
theorem wgt_eq (c : Dev nD) (t : Fin cfg0.N) (p : Fin 8) (r : Fin 128) :
    wgt m c t p r = eN m c (8 * (t.val / 16) + p.val) (128 * (t.val % 16) + r.val) := by
  have hN : t.val < 64 := lt_of_lt_of_eq t.isLt (show cfg0.N = 64 from N_0)
  have hb : 8 * (t.val / 16) + p.val < 32 := by have := p.isLt; omega
  have hu : 128 * (t.val % 16) + r.val < 2048 := by have := r.isLt; omega
  unfold eN wgt
  rw [dif_pos ⟨hb, hu⟩]
  refine (weight_at (xblk m c t) (wblk m c t) (bblk m c t) p r).trans ?_
  unfold score
  refine congrArg Ideal.exp (congrArg Ideal.tanh (congrArg₂ (· + ·) (Finset.sum_congr rfl fun k _ => ?_) ?_))
  · exact congrArg₂ (· * ·) (xblk_at m c t p r k hb hu) (wblk_at m c t k)
  · exact bblk_at m c t r hu

/-! ## The accumulators as partial sums over time -/

/-- A sum over the first `128 (j + 1)` naturals is the sum over the first `128 j` plus one more tile. -/
theorem range_step {M : Type*} [AddCommMonoid M] (f : ℕ → M) (j : ℕ) :
    ∑ u ∈ Finset.range (128 * (j + 1)), f u
      = ∑ u ∈ Finset.range (128 * j), f u + ∑ r : Fin 128, f (128 * j + r.val) := by
  rw [show 128 * (j + 1) = 128 * j + 128 by ring, Finset.sum_range_add,
    Fin.sum_univ_eq_sum_range (fun u => f (128 * j + u)) 128]

/-- `l` after point `t`, for row `p` of the chunk: the sum of the weights of row `8 (t / 16) + p` over the time steps
    below `128 (t % 16 + 1)`. -/
theorem l_sum (c : Dev nD) (p : Fin 8) : ∀ (n : ℕ) (h : n < cfg0.N),
    (outsAt0 m c n h).2.1 (ix2 p (0 : Fin 1))
      = ∑ u ∈ Finset.range (128 * (n % 16 + 1)), eN m c (8 * (n / 16) + p.val) u
  | 0, h => by
    refine (l_reset m c ⟨0, h⟩ rfl p).trans ?_
    simp only [wgt_eq]
    exact (show (∑ r : Fin 128, eN m c (8 * (0 / 16) + p.val) (128 * (0 % 16) + r.val))
        = ∑ u ∈ Finset.range (128 * (0 % 16 + 1)), eN m c (8 * (0 / 16) + p.val) u from by
      rw [show (0 : ℕ) % 16 = 0 from rfl, range_step]
      simp only [Nat.mul_zero, Finset.range_zero, Finset.sum_empty, zero_add])
  | n + 1, h => by
    by_cases h0 : (n + 1) % 16 = 0
    · refine (l_reset m c ⟨n + 1, h⟩ h0 p).trans ?_
      simp only [wgt_eq]
      show (∑ r : Fin 128, eN m c (8 * ((n + 1) / 16) + p.val) (128 * ((n + 1) % 16) + r.val)) = _
      rw [h0, range_step]
      simp only [Nat.mul_zero, Finset.range_zero, Finset.sum_empty, zero_add]
    · have e1 : (n + 1) / 16 = n / 16 := by omega
      have e2 : (n + 1) % 16 = n % 16 + 1 := by omega
      refine (l_step m c ⟨n + 1, h⟩ h0 p).trans ?_
      simp only [wgt_eq]
      show (outsAt0 m c n (Nat.lt_of_succ_lt h)).2.1 (ix2 p (0 : Fin 1))
        + (∑ r : Fin 128, eN m c (8 * ((n + 1) / 16) + p.val) (128 * ((n + 1) % 16) + r.val)) = _
      rw [l_sum c p n (Nat.lt_of_succ_lt h), e1, e2]
      exact (range_step _ _).symm

/-- `acc` after point `t`, for row `p` of the chunk and feature `d`: the sum of `weight * x` of row
    `8 (t / 16) + p` over the time steps below `128 (t % 16 + 1)`. -/
theorem acc_sum (c : Dev nD) (p : Fin 8) (d : Fin 1024) : ∀ (n : ℕ) (h : n < cfg0.N),
    (outsAt0 m c n h).2.2 (ix2 p d)
      = ∑ u ∈ Finset.range (128 * (n % 16 + 1)), eN m c (8 * (n / 16) + p.val) u * xN m c (8 * (n / 16) + p.val) u d
  | 0, h => by
    refine (acc_reset m c ⟨0, h⟩ rfl p d).trans ?_
    simp only [wgt_eq, xblk_eq]
    exact (show (∑ r : Fin 128, eN m c (8 * (0 / 16) + p.val) (128 * (0 % 16) + r.val)
          * xN m c (8 * (0 / 16) + p.val) (128 * (0 % 16) + r.val) d)
        = ∑ u ∈ Finset.range (128 * (0 % 16 + 1)), eN m c (8 * (0 / 16) + p.val) u * xN m c (8 * (0 / 16) + p.val) u d from by
      rw [show (0 : ℕ) % 16 = 0 from rfl,
        range_step (fun u => eN m c (8 * (0 / 16) + p.val) u * xN m c (8 * (0 / 16) + p.val) u d)]
      simp only [Nat.mul_zero, Finset.range_zero, Finset.sum_empty, zero_add])
  | n + 1, h => by
    by_cases h0 : (n + 1) % 16 = 0
    · refine (acc_reset m c ⟨n + 1, h⟩ h0 p d).trans ?_
      simp only [wgt_eq, xblk_eq]
      show (∑ r : Fin 128, eN m c (8 * ((n + 1) / 16) + p.val) (128 * ((n + 1) % 16) + r.val)
        * xN m c (8 * ((n + 1) / 16) + p.val) (128 * ((n + 1) % 16) + r.val) d) = _
      rw [h0, range_step (fun u => eN m c (8 * ((n + 1) / 16) + p.val) u * xN m c (8 * ((n + 1) / 16) + p.val) u d)]
      simp only [Nat.mul_zero, Finset.range_zero, Finset.sum_empty, zero_add]
    · have e1 : (n + 1) / 16 = n / 16 := by omega
      have e2 : (n + 1) % 16 = n % 16 + 1 := by omega
      refine (acc_step m c ⟨n + 1, h⟩ h0 p d).trans ?_
      simp only [wgt_eq, xblk_eq]
      show (outsAt0 m c n (Nat.lt_of_succ_lt h)).2.2 (ix2 p d)
        + (∑ r : Fin 128, eN m c (8 * ((n + 1) / 16) + p.val) (128 * ((n + 1) % 16) + r.val)
          * xN m c (8 * ((n + 1) / 16) + p.val) (128 * ((n + 1) % 16) + r.val) d) = _
      rw [acc_sum c p d n (Nat.lt_of_succ_lt h), e1, e2]
      exact (range_step (fun u => eN m c (8 * (n / 16) + p.val) u * xN m c (8 * (n / 16) + p.val) u d) _).symm

/-- THE OUTPUT BLOCK of the last tile of a chunk: for row `8 (t / 16) + p` and feature `d`, the sum over all 2048
    time steps of `weight * x` divided by the sum of the weights. -/
theorem out_val (c : Dev nD) (t : Fin cfg0.N) (h1 : t.val % 16 = 15) (p : Fin 8) (d : Fin 1024) :
    (outsAt0 m c t.val t.isLt).1 (ix2 p d)
      = Ideal.div (∑ u ∈ Finset.range 2048, eN m c (8 * (t.val / 16) + p.val) u * xN m c (8 * (t.val / 16) + p.val) u d)
          (∑ u ∈ Finset.range 2048, eN m c (8 * (t.val / 16) + p.val) u) := by
  rw [out_at m c t h1 p d, acc_sum m c p d t.val t.isLt, l_sum m c p t.val t.isLt, h1]

end Cert.KernelIdeal.PoolValue

end
-- ==== Proof.KernelValue.lean ====
/-
  The kernel's result array is the pooled array.

  The output window's block index is (chunk, 0), so the points of one chunk all address the same block and only
  the chunk's last tile writes it back.  What it writes is, row by row, the quotient of the two full sums over
  time, which is the pooled array read through that block; the four blocks written back tile the `[32, 1024]`
  result, so after the run the result array is the pooled array everywhere.
-/
import proofs.«403637_j37976100831584_4_alg».proof.Proof.KernelTiles

noncomputable section

namespace Cert.KernelIdeal.PoolValue

open Cert.KernelIdeal Cert.KernelIdeal.Gen Idealize.ShloMosaic Idealize.ShloMosaic.TcCoe Idealize.SL.Sem
open Idealize.ShloMosaic.Pipeline (Dat)
open Idealize.ShloMosaic.ValueIdx Cert.SoftmaxPool

variable (m : (ℓ : Loc nD τ sig) → Buf (Elt Ideal) ℓ) (ρ : Dev nD → PrngReg)

/-- The quotient of the two sums over all 2048 time steps, by absolute row, is the pooled array's entry. -/
theorem pooled_range (c : Dev nD) (b : Fin 32) (d : Fin 1024) :
    Ideal.div (∑ u ∈ Finset.range 2048, eN m c b.val u * xN m c b.val u d) (∑ u ∈ Finset.range 2048, eN m c b.val u)
      = pooled (argX m c) (argW m c) (argβ m c) (ix2 b d) := by
  have e1 : ∀ t : Fin 2048, eN m c b.val t.val = Ideal.exp (score (argX m c) (argW m c) (argβ m c) b t) := fun t => by
    unfold eN; rw [dif_pos ⟨b.isLt, t.isLt⟩]
  have e2 : ∀ t : Fin 2048, xN m c b.val t.val d = argX m c (ix3 b t d) := fun t => by
    unfold xN; rw [dif_pos ⟨b.isLt, t.isLt⟩]
  rw [← Fin.sum_univ_eq_sum_range (fun u => eN m c b.val u * xN m c b.val u d) 2048,
    ← Fin.sum_univ_eq_sum_range (fun u => eN m c b.val u) 2048]
  simp only [e1, e2]
  rfl

/-- WHAT A CHUNK'S LAST TILE WRITES BACK is its block of the pooled array. -/
theorem flushed_eq (c : Dev nD) (t : Fin cfg0.N) (hf : (cfg0.win 3).flush t = true) :
    (dats m 0 c).flushed 3 t
      = ((cfg0.win 3).blk t).view.read (Elt Ideal) (pooled (argX m c) (argW m c) (argβ m c)) := by
  have h15 : t.val % 16 = 15 := (flush0_3 t).mp hf
  have hN : t.val < 64 := lt_of_lt_of_eq t.isLt (show cfg0.N = 64 from N_0)
  obtain ⟨-, -, -, -, -, -, -, e7, e8⟩ := idx_facts t
  rw [Value.flushed3]
  funext y
  have hy0 : (y 0).val < 8 := (y 0).isLt
  have hy1 : (y 1).val < 1024 := (y 1).isLt
  have hb : 8 * (t.val / 16) + (y 0).val < 32 := by omega
  have hx : (cfg0.win 3).xinj (grid0.coords t) y = ix2 (⟨(y 0).val, hy0⟩ : Fin 8) (⟨(y 1).val, hy1⟩ : Fin 1024) :=
    funext fun a => by match a with | ⟨0, _⟩ => rfl | ⟨1, _⟩ => rfl
  have he : ((cfg0.win 3).blk t).view.emb y
      = ix2 (⟨8 * (t.val / 16) + (y 0).val, hb⟩ : Fin 32) (⟨(y 1).val, hy1⟩ : Fin 1024) := funext fun a => Fin.ext (by
    match a with
    | ⟨0, _⟩ => show win0_3.index t (0 : Fin 2) * 8 + 1 * (y 0).val = 8 * (t.val / 16) + (y 0).val; omega
    | ⟨1, _⟩ => show win0_3.index t (1 : Fin 2) * 1024 + 1 * (y 1).val = (y 1).val; omega)
  refine Eq.trans (congrArg (outsAt0 m c t.val t.isLt).1 hx) ?_
  refine (out_val m c t h15 ⟨(y 0).val, hy0⟩ ⟨(y 1).val, hy1⟩).trans ?_
  refine (pooled_range m c ⟨8 * (t.val / 16) + (y 0).val, hb⟩ ⟨(y 1).val, hy1⟩).trans ?_
  show pooled (argX m c) (argW m c) (argβ m c) (ix2 (⟨8 * (t.val / 16) + (y 0).val, hb⟩ : Fin 32) (⟨(y 1).val, hy1⟩ : Fin 1024))
    = pooled (argX m c) (argW m c) (argβ m c) (((cfg0.win 3).blk t).view.emb y)
  rw [he]

/-- An index of the result is in point `t`'s block iff each coordinate is in the block's range on its axis. -/
theorem mem_blk (t : Fin cfg0.N) (i : S32x1024.Idx) :
    i ∈ ((cfg0.win 3).blk t).view.set
      ↔ ∀ a : Fin 2, win0_3.index t a * S8x1024.size a ≤ (i a).val
          ∧ (i a).val < win0_3.index t a * S8x1024.size a + S8x1024.size a := by
  show i ∈ ((View.whole main_v4).slice (win0_3.rect t)).set ↔ _
  rw [View.set_slice_whole, Rect.mem_set_unit]
  exact Iff.rfl

/-- THE RESULT ARRAY after the run is the pooled array: row `b` lies in the block the last tile of chunk `b / 8`
    writes back. -/
theorem final (c : Dev nD) : (dats m 0 c).arrAt 3 cfg0.N = pooled (argX m c) (argW m c) (argβ m c) :=
  (dats m 0 c).arrAt_eq_of_cover 3 (pooled (argX m c) (argW m c) (argβ m c)) (flushed_eq m c) fun i => by
    have hi0 : (i 0).val < 32 := (i 0).isLt
    have hi1 : (i 1).val < 1024 := (i 1).isLt
    have hN : cfg0.N = 64 := N_0
    have hlt : 16 * ((i 0).val / 8) + 15 < cfg0.N := by omega
    obtain ⟨-, -, -, -, -, -, -, e7, e8⟩ := idx_facts ⟨16 * ((i 0).val / 8) + 15, hlt⟩
    have e7' : win0_3.index ⟨16 * ((i 0).val / 8) + 15, hlt⟩ (0 : Fin 2) = (i 0).val / 8 := by
      rw [e7]; show (16 * ((i 0).val / 8) + 15) / 16 = (i 0).val / 8; omega
    refine ⟨⟨16 * ((i 0).val / 8) + 15, hlt⟩, (flush0_3 _).mpr (by show (16 * ((i 0).val / 8) + 15) % 16 = 15; omega), ?_⟩
    rw [mem_blk]
    intro a
    match a with
    | ⟨0, _⟩ =>
      show win0_3.index ⟨16 * ((i 0).val / 8) + 15, hlt⟩ (0 : Fin 2) * 8 ≤ (i 0).val
        ∧ (i 0).val < win0_3.index ⟨16 * ((i 0).val / 8) + 15, hlt⟩ (0 : Fin 2) * 8 + 8
      omega
    | ⟨1, _⟩ =>
      show win0_3.index ⟨16 * ((i 0).val / 8) + 15, hlt⟩ (1 : Fin 2) * 1024 ≤ (i 1).val
        ∧ (i 1).val < win0_3.index ⟨16 * ((i 0).val / 8) + 15, hlt⟩ (1 : Fin 2) * 1024 + 1024
      omega

/-- THE RUN, READ: every weakly fair execution of the kernel's program ends with the result array at the pooled
    array of the arguments, the arguments unchanged. -/
theorem run : θ_run defs (onTc (τ := τ) (main (F := Ideal))) ⟨m, fun _ => 0, ρ⟩ fun r => ∀ c : Dev nD,
      r.2.mem ((c : Thread nD τ).loc main_v4) = pooled (argX m c) (argW m c) (argβ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.PoolValue

end
-- ==== Proof.RefValue.lean ====
/-
  The reference — jnp's `tanh (x · w + β)`, `jax.nn.softmax` over the time axis, and the weighted sum over time —
  read at an index.  `softmax` subtracts each row's maximum `M b` before exponentiating; at `(b, d)` the result is
  `∑ t, (exp (s b t - M b) / ∑ t', exp (s b t' - M b)) * x b t d`.  For real data every score is a real, the
  maximum over the (nonempty) time axis is a real, and the shift cancels: the result is the quotient of the
  two unshifted sums.
-/
import proofs.«403637_j37976100831584_4_alg».proof.Proof.Gen.ReferenceIdeal.Run
import proofs.«403637_j37976100831584_4_alg».proof.Proof.Gen.ReferenceIdeal.Read
import proofs.«403637_j37976100831584_4_alg».proof.Proof.SoftmaxPool
import Idealize.ShloMosaic.PureOps.Reduce

noncomputable section

namespace Cert.ReferenceIdeal.PoolRef

open Cert.ReferenceIdeal Cert.ReferenceIdeal.Gen Cert.ReferenceIdeal.Read Idealize.ShloMosaic
open Idealize.ShloMosaic.ValueIdx Cert.SoftmaxPool

variable (X : FVec Ideal S32x2048x1024 .f32) (W : FVec Ideal S1024x1 .f32) (β : FVec Ideal S2048x1 .f32)

/-- The pattern of `-∞` is the bottom of the extended reals. -/
theorem ofBits_neg_inf : Ideal.ofBits .f32 0xFF800000#32 = (⊥ : EReal) := by
  simp [Ideal.ofBits, Ideal.ieee]

/-- `tanh (x · w + β)` at `(b, t)` is the score. -/
theorem v4_at (b : Fin 32) (t : Fin 2048) :
    val_main_v4 (F := Ideal) X W β (ix3 b t (0 : Fin 1)) = score X W β b t := by
  rw [val_main_v4_apply, val_main_v3_apply, val_main_v0_apply, val_main_v2_apply, val_main_v1_apply]
  have e1 : ∀ k : Fin 1024, lidx_main_v0 (ix3 b t (0 : Fin 1)) k = ix3 b t k := fun k => funext fun a => by
    match a with | ⟨0, _⟩ => rfl | ⟨1, _⟩ => rfl | ⟨2, _⟩ => rfl
  have e2 : ∀ k : Fin 1024, ridx_main_v0 (ix3 b t (0 : Fin 1)) k = ix2 k (0 : Fin 1) := fun k => funext fun a => by
    match a with | ⟨0, _⟩ => rfl | ⟨1, _⟩ => rfl
  have e3 : idx_main_v1 (idx_main_v2 (ix3 b t (0 : Fin 1))) = ix2 t (0 : Fin 1) := funext fun a => by
    match a with | ⟨0, _⟩ => rfl | ⟨1, _⟩ => rfl
  simp only [e1, e2, e3]
  rfl

/-- The time axis put back into a reduced index `(b, 0)` is `(b, t, 0)`. -/
theorem lift_at (h : S32x2048x1.Reduces [1] S32x1) (b : Fin 32) (k : Fin (S32x2048x1.size 1)) :
    h.lift (ix2 b (0 : Fin 1)) k = ix3 b (⟨k.val, k.isLt⟩ : Fin 2048) (0 : Fin 1) := by
  funext a; apply Fin.ext
  match a with | ⟨0, _⟩ => rfl | ⟨1, _⟩ => rfl | ⟨2, _⟩ => rfl

/-- The row maximum the softmax subtracts, for real data, is a real. -/
theorem v7_real (hX : ∀ i, ∃ r : ℝ, X i = r) (hW : ∀ i, ∃ r : ℝ, W i = r) (hβ : ∀ i, ∃ r : ℝ, β i = r) (b : Fin 32) :
    ∃ r : ℝ, val_main_v7 (F := Ideal) X W β (ix2 b (0 : Fin 1)) = r := by
  rw [val_main_v7_apply, val_main_v6_apply, val_main_cst_0_apply]
  unfold val_main_v5
  rw [Host.reduce_eq_fold_single FloatOps.maximumf _ _ reducesTo_S32x2048x1_S32x1_d1 (by decide) h_S_]
  haveI : Nonempty (Fin (S32x2048x1.size 1)) := ⟨⟨0, by decide⟩⟩
  have hf : ∀ k : Fin (S32x2048x1.size 1), ∃ r : ℝ,
      (val_main_v4 (F := Ideal) X W β ∘ (by decide : S32x2048x1.Reduces [1] S32x1).lift (ix2 b (0 : Fin 1))) k = r := by
    intro k
    show ∃ r : ℝ, val_main_v4 (F := Ideal) X W β ((by decide : S32x2048x1.Reduces [1] S32x1).lift (ix2 b (0 : Fin 1)) k) = r
    rw [lift_at, v4_at]
    exact score_is_real X W β hX hW hβ _ _
  obtain ⟨r, hr⟩ := fold_max_real' _ hf
  refine ⟨r, ?_⟩
  show max (Ideal.ofBits .f32 0xFF800000#32) (Finset.fold max (Ideal.ofBits .f32 0xFF800000#32) _ Finset.univ) = _
  rw [ofBits_neg_inf, hr]
  exact max_eq_right bot_le

/-- The shifted exponential at `(b, t)`. -/
theorem v11_at (b : Fin 32) (t : Fin 2048) :
    val_main_v11 (F := Ideal) X W β (ix3 b t (0 : Fin 1))
      = Ideal.exp (score X W β b t - val_main_v7 (F := Ideal) X W β (ix2 b (0 : Fin 1))) := by
  rw [val_main_v11_apply, val_main_v10_apply, val_main_v9_apply, val_main_v8_apply, v4_at]
  have e : idx_main_v8 (idx_main_v9 (ix3 b t (0 : Fin 1))) = ix2 b (0 : Fin 1) := funext fun a => by
    match a with | ⟨0, _⟩ => rfl | ⟨1, _⟩ => rfl
  rw [e]
  rfl

/-- The softmax denominator of row `b`. -/
theorem v12_at (b : Fin 32) :
    val_main_v12 (F := Ideal) X W β (ix2 b (0 : Fin 1))
      = ∑ t : Fin 2048, Ideal.exp (score X W β b t - val_main_v7 (F := Ideal) X W β (ix2 b (0 : Fin 1))) := by
  rw [val_main_v12_apply, val_main_cst_1_apply]
  have e : ∀ k : Fin 2048, idx_main_v12 (ix2 b (0 : Fin 1)) k = ix3 b k (0 : Fin 1) := fun k => funext fun a => by
    match a with | ⟨0, _⟩ => rfl | ⟨1, _⟩ => rfl | ⟨2, _⟩ => rfl
  simp only [e, v11_at]
  show Ideal.ofBits .f32 0x00000000#32 + _ = _
  rw [Ideal.ofBits_zero_f32, zero_add]

/-- The softmax weight of time step `t` of row `b`. -/
theorem v15_at (b : Fin 32) (t : Fin 2048) :
    val_main_v15 (F := Ideal) X W β (ix3 b t (0 : Fin 1))
      = Ideal.div (Ideal.exp (score X W β b t - val_main_v7 (F := Ideal) X W β (ix2 b (0 : Fin 1))))
          (∑ t' : Fin 2048, Ideal.exp (score X W β b t' - val_main_v7 (F := Ideal) X W β (ix2 b (0 : Fin 1)))) := by
  rw [val_main_v15_apply, val_main_v14_apply, val_main_v13_apply, v11_at]
  have e : idx_main_v13 (idx_main_v14 (ix3 b t (0 : Fin 1))) = ix2 b (0 : Fin 1) := funext fun a => by
    match a with | ⟨0, _⟩ => rfl | ⟨1, _⟩ => rfl
  rw [e, v12_at]
  rfl

/-- The result at `(b, d)`: the softmax-weighted sum over time of `x b t d`. -/
theorem v18_at (b : Fin 32) (d : Fin 1024) :
    val_main_v18 (F := Ideal) X W β (ix2 b d)
      = ∑ t : Fin 2048, Ideal.div (Ideal.exp (score X W β b t - val_main_v7 (F := Ideal) X W β (ix2 b (0 : Fin 1))))
          (∑ t' : Fin 2048, Ideal.exp (score X W β b t' - val_main_v7 (F := Ideal) X W β (ix2 b (0 : Fin 1))))
          * X (ix3 b t d) := by
  rw [val_main_v18_apply, val_main_cst_2_apply]
  have e1 : ∀ k : Fin 2048, idx_main_v18 (ix2 b d) k = ix3 b k d := fun k => funext fun a => by
    match a with | ⟨0, _⟩ => rfl | ⟨1, _⟩ => rfl | ⟨2, _⟩ => rfl
  have e2 : ∀ k : Fin 2048, idx_main_v16 (ix3 b k d) = ix3 b k (0 : Fin 1) := fun k => funext fun a => by
    match a with | ⟨0, _⟩ => rfl | ⟨1, _⟩ => rfl | ⟨2, _⟩ => rfl
  simp only [e1, val_main_v17_apply, val_main_v16_apply, e2, v15_at]
  show Ideal.ofBits .f32 0x00000000#32 + _ = _
  rw [Ideal.ofBits_zero_f32, zero_add]
  rfl

/-- THE REFERENCE IS THE POOLED ARRAY, for real data. -/
theorem ref_pooled (hX : ∀ i, ∃ r : ℝ, X i = r) (hW : ∀ i, ∃ r : ℝ, W i = r) (hβ : ∀ i, ∃ r : ℝ, β i = r) :
    val_main_v18 (F := Ideal) X W β = pooled X W β := by
  funext i
  obtain ⟨b, d, rfl⟩ : ∃ (b : Fin 32) (d : Fin 1024), i = ix2 b d := ⟨i 0, i 1, eq_ix2 i⟩
  rw [v18_at]
  haveI : Nonempty (Fin 2048) := ⟨⟨0, by decide⟩⟩
  exact (pool_eq (fun t : Fin 2048 => score X W β b t) (fun t : Fin 2048 => X (ix3 b t d)) _
    (fun t => score_is_real X W β hX hW hβ b t) (fun t => hX _) (v7_real X W β hX hW hβ b)).symm

end Cert.ReferenceIdeal.PoolRef

end
-- ==== Proof.RealInputs.lean ====
/-
  The precondition says every input entry is a real number.

  `finite_inputs` is the conjunction of three `jnp.all (|a| < +∞)`, one per input.  A conjunction of bits that is
  `1` has both bits `1`; an `all` that is `1` has every element `1`; and on the extended reals `|a| < +∞` rules out
  both infinities, since `|±∞| = +∞`.
-/
import proofs.«403637_j37976100831584_4_alg».proof.Pre_finite_inputs
import proofs.«403637_j37976100831584_4_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.RealInputs

open Cert.Pre_finite_inputs Cert.Pre_finite_inputs.Gen Idealize.ShloMosaic Idealize.ShloMosaic.ValueIdx

instance : Subsingleton S_.Idx := ⟨fun a b => funext fun d => d.elim0⟩

/-- On the extended reals `|a| < +∞` says `a` is a real. -/
theorem real_of_abs_lt (a : EReal)
    (h : Ideal.cmp .olt (max a (-a)) (Ideal.ofBits .f32 0x7F800000#32) = 1#1) : ∃ r : ℝ, a = r := by
  have htop : Ideal.ofBits .f32 0x7F800000#32 = (⊤ : EReal) := by simp [Ideal.ofBits, Ideal.ieee]
  rw [htop] at h
  induction a using EReal.rec with
  | bot => simp [Ideal.cmp] at h
  | top => simp [Ideal.cmp] at h
  | coe r => exact ⟨r, rfl⟩

/-- Under `finite_inputs` the three inputs hold real numbers only. -/
theorem reals_of_pre (X : FVec Ideal S32x2048x1024 .f32) (W : FVec Ideal S1024x1 .f32) (β : FVec Ideal S2048x1 .f32)
    (h : fn (F := Ideal) X W β = fun _ => 1#1) :
    (∀ i, ∃ r : ℝ, X i = r) ∧ (∀ i, ∃ r : ℝ, W i = r) ∧ (∀ i, ∃ r : ℝ, β i = r) := by
  have h0 := congrFun h ix0
  dsimp only [fn] at h0
  obtain ⟨h01, h2⟩ := IntOp.andi_eq_one.1 (show IntOp.andi _ _ = 1#1 from h0)
  obtain ⟨hX, hW⟩ := IntOp.andi_eq_one.1 (show IntOp.andi _ _ = 1#1 from h01)
  exact ⟨fun i => real_of_abs_lt (X i) (Host.reduce_andi_all _ _ _ _ _ hX i),
    fun i => real_of_abs_lt (W i) (Host.reduce_andi_all _ _ _ _ _ hW i),
    fun i => real_of_abs_lt (β i) (Host.reduce_andi_all _ _ _ _ _ h2 i)⟩

end Cert.Pre_finite_inputs.RealInputs

end
-- ==== Proof.lean ====
/-
  Attention pooling over time, a Pallas kernel against its jnp reference, equal over the extended reals.

  Inputs `x : [32, 2048, 1024]`, `w : [1024, 1]`, `β : [2048, 1]`.  With the score
  `s b t = tanh (∑ k, x b t k * w k + β t)` both programs compute a softmax-over-time weighted sum of the rows.

  The kernel walks a grid of 4 batch chunks × 16 time tiles.  Per chunk it keeps two accumulators: the running sum
  of `exp (s b t)` and the running sum of `exp (s b t) * x b t d`; both are reset at the chunk's first tile, grow by
  one tile at every point, and at the last tile the output block is their quotient.  It never subtracts a maximum:
  `tanh` bounds the score.  So the kernel's result at `(b, d)` is
      (∑ t, exp (s b t) * x b t d) / (∑ t, exp (s b t)).                                   (Proof/KernelValue.lean)

  The reference is `jax.nn.softmax`, which subtracts the row maximum `M b` first:
      ∑ t, (exp (s b t - M b) / ∑ t', exp (s b t' - M b)) * x b t d.                         (Proof/RefValue.lean)

  For real inputs every score is real, `M b` — a maximum of 2048 reals — is real, and `exp (s - M) = exp s / exp M`
  lets the common factor cancel (Proof/SoftmaxPool.lean).  On the extended reals the cancellation fails at
  infinite entries, so the precondition is used: every input entry is finite, hence a real (Proof/RealInputs.lean).

  The three frames are the generated ones (the reference's is its generated run with the result dropped); the ideal
  pass rewrote nothing, so `preserves` is `True`.
-/
import proofs.«403637_j37976100831584_4_alg».proof.Defs
import proofs.«403637_j37976100831584_4_alg».proof.Proof.Gen.Kernel
import proofs.«403637_j37976100831584_4_alg».proof.Proof.Gen.Kernel.Frame
import proofs.«403637_j37976100831584_4_alg».proof.Proof.Gen.KernelIdeal
import proofs.«403637_j37976100831584_4_alg».proof.Proof.Gen.KernelIdeal.Frame
import proofs.«403637_j37976100831584_4_alg».proof.Proof.Gen.ReferenceIdeal
import proofs.«403637_j37976100831584_4_alg».proof.Proof.Gen.ReferenceIdeal.Run
import proofs.«403637_j37976100831584_4_alg».proof.Proof.Gen.Pre_finite_inputs
import proofs.«403637_j37976100831584_4_alg».proof.Proof.KernelValue
import proofs.«403637_j37976100831584_4_alg».proof.Proof.RefValue
import proofs.«403637_j37976100831584_4_alg».proof.Proof.RealInputs
import Idealize.ShloMosaic.Adequacy
import Idealize.ShloMosaic.Init

noncomputable section

namespace Cert.Proof

open Idealize.ShloMosaic Idealize.ShloMosaic.TcCoe Idealize.SL.Sem Cert.SoftmaxPool

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the pooled array of the (agreeing, finite) arguments. -/
theorem algebraic : Cert.algebraic_KernelIdeal_ReferenceIdeal := by
  intro m ρ m' ρ' hpre hagree
  refine ⟨fun c => pooled (Cert.KernelIdeal.PoolValue.argX m c) (Cert.KernelIdeal.PoolValue.argW m c)
    (Cert.KernelIdeal.PoolValue.argβ m c), Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hX, hW, hβ⟩ := Cert.Pre_finite_inputs.RealInputs.reals_of_pre _ _ _ (hpre c)
  exact (Cert.ReferenceIdeal.Read.val_main_v18_eq _ _ _).trans
    (Cert.ReferenceIdeal.PoolRef.ref_pooled _ _ _ hX hW hβ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
